-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x64 : Shape := ⟨2, ![256, 64]⟩
abbrev S1600000 : Shape := ⟨1, ![1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x256 .f32) (main_arg1 : FVec F S256x64 .f32) (main_arg2 : IVec S1600000 32) (main_arg3 : IVec S1600000 32) (main_arg4 : FVec F S1600000 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S1600000 .f32 := Host.absf main_arg4
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  main_v13
-- ==== Kernel.lean ====
abbrev S100000x256 : Shape := ⟨2, ![100000, 256]⟩
abbrev S256x64 : Shape := ⟨2, ![256, 64]⟩
abbrev S1600000 : Shape := ⟨1, ![1600000]⟩
abbrev S100000x64 : Shape := ⟨2, ![100000, 64]⟩
abbrev S5000x256 : Shape := ⟨2, ![5000, 256]⟩
abbrev S5000x64 : Shape := ⟨2, ![5000, 64]⟩
abbrev S_ : Shape := ⟨0, ![]⟩
abbrev S1600000x1 : Shape := ⟨2, ![1600000, 1]⟩
abbrev S1600000x64 : Shape := ⟨2, ![1600000, 64]⟩
abbrev S8000x64 : Shape := ⟨2, ![8000, 64]⟩
abbrev S8000x1 : Shape := ⟨2, ![8000, 1]⟩

abbrev nBuf : Space → Nat
  | .hbm => 22
  | .vmem => 15
  | .smem => 0
  | _ => 0

abbrev bufTy : (tb : Table) → Fin (tcTables nBuf tb) → BufTy
  | .hbm, ⟨0, _⟩ => ⟨S100000x256, .f32⟩
  | .hbm, ⟨1, _⟩ => ⟨S256x64, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S100000x64, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S1600000x1, .f32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S8000x64, .f32⟩
  | .local _ .vmem, ⟨6, _⟩ => ⟨S8000x64, .f32⟩
  | .local _ .vmem, ⟨7, _⟩ => ⟨S8000x1, .f32⟩
  | .local _ .vmem, ⟨8, _⟩ => ⟨S8000x1, .f32⟩
  | .local _ .vmem, ⟨9, _⟩ => ⟨S8000x64, .f32⟩
  | .local _ .vmem, ⟨10, _⟩ => ⟨S8000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x64 : S8000x1.Broadcasts S8000x64
  bcast_S_S100000x64 : S_.BroadcastsInDim S100000x64 (![] : Fin 0 → Fin S100000x64.rank)
  shapeCasts_S5000x64_S5000x64 : S5000x64.ShapeCasts S5000x64
  dot_S5000x256_S256x64_S5000x64_1_0_0_1_n_n_wf : DotDims.WF S5000x256 S256x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S1600000x64.size a
  hwx1_0 : ∀ i : grid1.Coords, EltTy.bits .f32 = 32 ∨ (Rect.block (s := S1600000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S1600000x1.size a
  hwx1_1 : ∀ i : grid1.Coords, EltTy.bits .f32 = 32 ∨ (Rect.block (s := S1600000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S1600000x64.size a
  hwx1_2 : ∀ i : grid1.Coords, EltTy.bits .f32 = 32 ∨ (Rect.block (s := S1600000x64) S8000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S8000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v12) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S5000x64.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x256 : Shape := ⟨2, ![100000, 256]⟩
abbrev S256x64 : Shape := ⟨2, ![256, 64]⟩
abbrev S1600000 : Shape := ⟨1, ![1600000]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩

abbrev nBuf : Space → Nat
  | .hbm => 25
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x64, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S100000x64, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S1600000x1, .f32⟩
  | .hbm, ⟨16, _⟩ => ⟨S1600000x64, .f32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S_, .f32⟩
  | .hbm, ⟨23, _⟩ => ⟨S100000x64, .f32⟩
  | .hbm, ⟨24, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S100000x256_S256x64_S100000x64_1_0_0_1_n_n_wf : DotDims.WF S100000x256 S256x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  The three arithmetic stages of the graph-convolution layer as whole-array functions over the extended
  reals, index by index:

  * `support a w` — the dense transform: entry (n, f) is the sum over the 256 input features k of
    a(n, k) · w(k, f);
  * `messages g v` — the edge weighting: row e of the gathered rows scaled by the e-th edge weight,
    entry (e, f) is g(e, f) · v(e, 0);
  * `positive x` — the activation: entry (n, f) is max(x(n, f), 0).

  Between them the layer gathers rows by source node and adds rows up by destination node; those two
  steps are the same operations in both programs and are carried as they are.
-/
import Idealize.ShloMosaic.PureOps.Ideal
import Idealize.ShloMosaic.Lib.ValueIdx

noncomputable section

open scoped BigOperators

namespace Cert.Spec

open Idealize.ShloMosaic

abbrev Feat : Shape := ⟨2, ![100000, 256]⟩
abbrev Wt : Shape := ⟨2, ![256, 64]⟩
abbrev Node : Shape := ⟨2, ![100000, 64]⟩
abbrev Edge : Shape := ⟨2, ![1600000, 64]⟩
abbrev EdgeCol : Shape := ⟨2, ![1600000, 1]⟩

/-- The entry of the feature matrix that output entry `i` meets at input feature `k`: row of `i`, column `k`. -/
abbrev featAt (i : Node.Idx) (k : Fin 256) : Feat.Idx := fun a => match a with
  | ⟨0, _⟩ => ⟨(i 0).val, (i 0).isLt⟩
  | ⟨1, _⟩ => ⟨k.val, k.isLt⟩
/-- The entry of the weight matrix that output entry `i` meets at input feature `k`: row `k`, column of `i`. -/
abbrev wtAt (i : Node.Idx) (k : Fin 256) : Wt.Idx := fun a => match a with
  | ⟨0, _⟩ => ⟨k.val, k.isLt⟩
  | ⟨1, _⟩ => ⟨(i 1).val, (i 1).isLt⟩
/-- The weight of the edge whose row holds entry `i`: row of `i`, the one column. -/
abbrev edgeAt (i : Edge.Idx) : EdgeCol.Idx := fun a => match a with
  | ⟨0, _⟩ => ⟨(i 0).val, (i 0).isLt⟩
  | ⟨1, _⟩ => ⟨0, Nat.one_pos⟩

/-- The dense transform: features times weights. -/
def support (a : FVec Ideal Feat .f32) (w : FVec Ideal Wt .f32) : FVec Ideal Node .f32 :=
  fun i => ∑ k : Fin 256, a (featAt i k) * w (wtAt i k)

/-- Each gathered row scaled by its edge's weight. -/
def messages (g : FVec Ideal Edge .f32) (v : FVec Ideal EdgeCol .f32) : FVec Ideal Edge .f32 :=
  fun i => g i * v (edgeAt i)

/-- The positive part. -/
def positive (x : FVec Ideal Node .f32) : FVec Ideal Node .f32 :=
  fun i => max (x i) (Ideal.ofBits .f32 0x00000000#32)

end Cert.Spec

end
-- ==== Proof.Region0.lean ====
/-
  The first region (the dense transform) as a whole-array function of what it finds on entry: each of its
  20 grid points loads rows 5000·t … 5000·t + 4999 of the feature matrix and the whole weight matrix,
  multiplies them (the narrowing to bfloat16 changes nothing over the extended reals, and the product is
  accumulated into zeros) and writes the same rows of the result; the 20 row blocks tile the result, so
  the result array ends holding, at (n, f), the sum over the 256 input features k of
  features(n, k) · weight(k, f).
-/
import proofs.«170723_j13073880449099_2_alg».proof.Proof.Gen.KernelIdeal.Frame
import proofs.«170723_j13073880449099_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The feature matrix as the region finds it, at its literal type. -/
abbrev feat (c : Dev nD) : FVec Ideal S100000x256 .f32 := V c main_arg0
/-- The weight matrix as the region finds it, at its literal type. -/
abbrev wt (c : Dev nD) : FVec Ideal S256x64 .f32 := V c main_arg1

theorem origin : (![0, 0] : Fin 2 → Nat) = fun _ => 0 := funext fun a => by fin_cases a <;> rfl

/-! ## The block product read at an entry -/

theorem lhs_0 (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem lhs_1 (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
theorem rhs_0 (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
theorem rhs_1 (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- The entry of the block of feature rows that block entry `j` meets at input feature `k`. -/
abbrev rowOf (j : S5000x64.Idx) (k : Fin 256) : S5000x256.Idx := fun a => match a with
  | ⟨0, _⟩ => ⟨(j 0).val, (j 0).isLt⟩
  | ⟨1, _⟩ => ⟨k.val, k.isLt⟩
/-- The entry of the weight matrix that block entry `j` meets at input feature `k`. -/
abbrev colOf (j : S5000x64.Idx) (k : Fin 256) : S256x64.Idx := fun a => match a with
  | ⟨0, _⟩ => ⟨k.val, k.isLt⟩
  | ⟨1, _⟩ => ⟨(j 1).val, (j 1).isLt⟩

/-- The body's stored value at an entry of the block: the sum over the input features of the products. -/
theorem pay_apply (x0 : Vec Ideal S5000x256 .f32) (x1 : Vec Ideal S256x64 .f32) (j : S5000x64.Idx) :
    k0_pay1 x0 x1 j = ∑ k : Fin 256, x0 (rowOf j k) * x1 (colOf j k) := by
  unfold k0_pay1
  simp only [matmul]
  rw [Ideal.matmul_constant_zero_apply, ← Equiv.sum_comp (ValueIdx.contrEquiv1 dot_S5000x256_S256x64_S5000x64_1_0_0_1_n_n 256 rfl rfl).symm]
  refine Finset.sum_congr rfl fun k _ => ?_
  have hk := ValueIdx.contrEquiv1_symm_val dot_S5000x256_S256x64_S5000x64_1_0_0_1_n_n 256 rfl rfl k
  have el : dot_S5000x256_S256x64_S5000x64_1_0_0_1_n_n.lhsIdx j ((ValueIdx.contrEquiv1 dot_S5000x256_S256x64_S5000x64_1_0_0_1_n_n 256 rfl rfl).symm k) = rowOf j k := funext fun a => Fin.ext (by
    match a with
    | ⟨0, _⟩ => exact lhs_0 _ _
    | ⟨1, _⟩ => exact (lhs_1 _ _).trans hk)
  have er : dot_S5000x256_S256x64_S5000x64_1_0_0_1_n_n.rhsIdx j ((ValueIdx.contrEquiv1 dot_S5000x256_S256x64_S5000x64_1_0_0_1_n_n 256 rfl rfl).symm k) = colOf j k := funext fun a => Fin.ext (by
    match a with
    | ⟨0, _⟩ => exact (rhs_0 _ _).trans hk
    | ⟨1, _⟩ => exact rhs_1 _ _)
  rw [el, er]
  rfl

/-! ## From the blocks to the array -/

/-- The index maps over the grid: the feature block and the output block of point `t` are row block `t`, the weight
    matrix is its one whole block. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the product of the arrays the region found. -/
theorem flushed_eq (c : Dev nD) (t : Fin cfg0.N) :
    (dat0 V c).flushed 2 t = ((cfg0.win 2).blk t).view.read (Elt Ideal) (support (feat V c) (wt V c)) := by
  show (cfg0.win 2).cut (grid0.coords t) ((dat0 V c).after 2 t) = _
  rw [after0_2]
  unfold out0_2
  rw [View.canon_unit_zero origin]
  simp only [View.ld_unit_zero (S := S5000x256) origin, View.ld_unit_zero (S := S256x64) origin]
  obtain ⟨e0, e1, e2, e3, -, e5⟩ := idx_facts t
  funext j
  show k0_pay1 (iblk0 V c 0 t) (iblk0 V c 1 t) j = support (feat V c) (wt V c) (((cfg0.win 2).blk t).view.emb j)
  refine (pay_apply (iblk0 V c 0 t) (iblk0 V c 1 t) j).trans ?_
  unfold support
  refine Finset.sum_congr rfl fun k _ => ?_
  show feat V c (((cfg0.win 0).blk t).view.emb (rowOf j k)) * wt V c (((cfg0.win 1).blk t).view.emb (colOf j k))
    = feat V c (featAt (((cfg0.win 2).blk t).view.emb j) k) * wt V c (wtAt (((cfg0.win 2).blk t).view.emb j) k)
  have h0 : ((cfg0.win 0).blk t).view.emb (rowOf j k) = featAt (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : ((cfg0.win 1).blk t).view.emb (colOf j k) = wtAt (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 64 + 1 * (j 1).val = win0_2.index t (1 : Fin 2) * 64 + 1 * (j 1).val; omega
  rw [h0, h1]

/-- An entry is in point `t`'s output block iff each coordinate is in the block's range. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Every entry of the result lies in the output block of the point that owns its row. -/
theorem cover (i : S100000x64.Idx) :
    ∃ t : Fin cfg0.N, (cfg0.win 2).flush t = true ∧ i ∈ ((cfg0.win 2).blk t).view.set := by
  have h0 : (i 0).val < 100000 := (i 0).isLt
  have h1 : (i 1).val < 64 := (i 1).isLt
  refine ⟨⟨(i 0).val / 5000, by rw [show cfg0.N = 20 from N_0]; omega⟩, flush0_2 _, ?_⟩
  obtain ⟨-, -, -, -, e4, e5⟩ := idx_facts ⟨(i 0).val / 5000, by rw [show cfg0.N = 20 from N_0]; omega⟩
  rw [mem_blk]
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 64 ≤ (i 1).val ∧ (i 1).val < win0_2.index _ (1 : Fin 2) * 64 + 64
    rw [e5]; omega

/-- The result array after the region: the product of the feature matrix with the weight matrix. -/
theorem final (c : Dev nD) : (dat0 V c).arrAt 2 cfg0.N = support (feat V c) (wt V c) :=
  (dat0 V c).arrAt_eq_of_cover 2 (support (feat V c) (wt V c)) (fun t _ => flushed_eq V c t) cover

end Cert.KernelIdeal.Region0

end
-- ==== Proof.Region1.lean ====
/-
  The second region (the edge weighting) as a whole-array function of what it finds on entry: each of its
  200 grid points loads rows 8000·t … 8000·t + 7999 of the gathered rows and the same rows of the column of
  edge weights, multiplies every entry of a row by that row's weight and writes the same rows of the
  result; the 200 row blocks tile the result, so the result array ends holding every gathered row scaled
  by its edge's weight.
-/
import proofs.«170723_j13073880449099_2_alg».proof.Proof.Gen.KernelIdeal.Frame
import proofs.«170723_j13073880449099_2_alg».proof.Proof.Spec
import Idealize.ShloMosaic.Lib.Pipeline.Value
import Idealize.ShloMosaic.Lib.ValueIdx

set_option maxRecDepth 16384

noncomputable section

namespace Cert.KernelIdeal.Region1

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The gathered rows as the region finds them, at their literal type. -/
abbrev gath (c : Dev nD) : FVec Ideal S1600000x64 .f32 := V c main_v7
/-- The column of edge weights as the region finds it, at its literal type. -/
abbrev wcol (c : Dev nD) : FVec Ideal S1600000x1 .f32 := V c main_v8

theorem origin : (![0, 0] : Fin 2 → Nat) = fun _ => 0 := funext fun a => by fin_cases a <;> rfl

/-- The entry of a block of the weight column that multiplies entry `j` of the block of rows: row of `j`, the one column. -/
abbrev colOf (j : S8000x64.Idx) : S8000x1.Idx := fun a => match a with
  | ⟨0, _⟩ => ⟨(j 0).val, (j 0).isLt⟩
  | ⟨1, _⟩ => ⟨0, Nat.one_pos⟩

/-- The body's stored value at an entry of the block: the loaded entry times its row's weight. -/
theorem pay_apply (x0 : Vec Ideal S8000x64 .f32) (x1 : Vec Ideal S8000x1 .f32) (j : S8000x64.Idx) :
    k1_pay1 x0 x1 j = x0 j * x1 (colOf j) := by
  unfold k1_pay1
  rw [shapeCast_self, shapeCast_self]
  show x0 j * broadcastTo S8000x64 x1 broadcasts_S8000x1_S8000x64 j = _
  rw [broadcastTo_apply x1 broadcasts_S8000x1_S8000x64 j (colOf j) (fun a => match a with
    | ⟨0, _⟩ => by rw [if_neg (show ¬ S8000x1.size ⟨0, by decide⟩ = 1 by decide)]; rfl
    | ⟨1, _⟩ => by rw [if_pos (show S8000x1.size ⟨1, by decide⟩ = 1 by decide)])]

/-- The index maps over the grid: the two input blocks and the output block of point `t` are all row block `t`. -/
theorem idx_facts : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = 0
    ∧ win1_2.index t (0 : Fin 2) = t.val
    ∧ win1_2.index t (1 : Fin 2) = 0 :=
  (by decide +kernel : ∀ t : Fin grid1.N, _)

/-- What point `t` writes back is block `t` of the scaled rows of the arrays the region found. -/
theorem flushed_eq (c : Dev nD) (t : Fin cfg1.N) :
    (dat1 V c).flushed 2 t = ((cfg1.win 2).blk t).view.read (Elt Ideal) (messages (gath V c) (wcol V c)) := by
  show (cfg1.win 2).cut (grid1.coords t) ((dat1 V c).after 2 t) = _
  rw [after1_2]
  unfold out1_2
  rw [View.canon_unit_zero origin]
  simp only [View.ld_unit_zero (S := S8000x64) origin, View.ld_unit_zero (S := S8000x1) origin]
  obtain ⟨e0, e1, e2, e3, -, -⟩ := idx_facts t
  funext j
  show k1_pay1 (iblk1 V c 0 t) (iblk1 V c 1 t) j = messages (gath V c) (wcol V c) (((cfg1.win 2).blk t).view.emb j)
  refine (pay_apply (iblk1 V c 0 t) (iblk1 V c 1 t) j).trans ?_
  show gath V c (((cfg1.win 0).blk t).view.emb j) * wcol V c (((cfg1.win 1).blk t).view.emb (colOf j))
    = gath V c (((cfg1.win 2).blk t).view.emb j) * wcol V c (edgeAt (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 8000 + 1 * (j 0).val = win1_2.index t (0 : Fin 2) * 8000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (colOf j) = edgeAt (((cfg1.win 2).blk t).view.emb j) := by
    funext a; apply Fin.ext
    match a with
    | ⟨0, _⟩ => show win1_1.index t (0 : Fin 2) * 8000 + 1 * (j 0).val = win1_2.index t (0 : Fin 2) * 8000 + 1 * (j 0).val; omega
    | ⟨1, _⟩ => show win1_1.index t (1 : Fin 2) * 1 + 1 * 0 = 0; omega
  rw [h0, h1]

/-- An entry is in point `t`'s output block iff each coordinate is in the block's range. -/
theorem mem_blk (t : Fin cfg1.N) (i : S1600000x64.Idx) :
    i ∈ ((cfg1.win 2).blk t).view.set ↔ ∀ a : Fin 2, win1_2.index t a * S8000x64.size a ≤ (i a).val ∧ (i a).val < win1_2.index t a * S8000x64.size a + S8000x64.size a := by
  show i ∈ ((View.whole main_v9).slice (win1_2.rect t)).set ↔ _
  rw [View.set_slice_whole, Rect.mem_set_unit]
  exact Iff.rfl

/-- Every entry of the result lies in the output block of the point that owns its row. -/
theorem cover (i : S1600000x64.Idx) :
    ∃ t : Fin cfg1.N, (cfg1.win 2).flush t = true ∧ i ∈ ((cfg1.win 2).blk t).view.set := by
  have h0 : (i 0).val < 1600000 := (i 0).isLt
  have h1 : (i 1).val < 64 := (i 1).isLt
  refine ⟨⟨(i 0).val / 8000, by rw [show cfg1.N = 200 from N_1]; omega⟩, flush1_2 _, ?_⟩
  obtain ⟨-, -, -, -, e4, e5⟩ := idx_facts ⟨(i 0).val / 8000, by rw [show cfg1.N = 200 from N_1]; omega⟩
  rw [mem_blk]
  intro a
  match a with
  | ⟨0, _⟩ =>
    show win1_2.index _ (0 : Fin 2) * 8000 ≤ (i 0).val ∧ (i 0).val < win1_2.index _ (0 : Fin 2) * 8000 + 8000
    rw [e4]; show (i 0).val / 8000 * 8000 ≤ (i 0).val ∧ (i 0).val < (i 0).val / 8000 * 8000 + 8000; omega
  | ⟨1, _⟩ =>
    show win1_2.index _ (1 : Fin 2) * 64 ≤ (i 1).val ∧ (i 1).val < win1_2.index _ (1 : Fin 2) * 64 + 64
    rw [e5]; omega

/-- The result array after the region: every gathered row scaled by its edge's weight. -/
theorem final (c : Dev nD) : (dat1 V c).arrAt 2 cfg1.N = messages (gath V c) (wcol V c) :=
  (dat1 V c).arrAt_eq_of_cover 2 (messages (gath V c) (wcol V c)) (fun t _ => flushed_eq V c t) cover

end Cert.KernelIdeal.Region1

end
-- ==== Proof.Region2.lean ====
/-
  The third region (the activation) as a whole-array function of what it finds on entry: each of its 20
  grid points loads rows 5000·t … 5000·t + 4999 of the aggregated array, takes the positive part entry by
  entry and writes the same rows of the result; the 20 row blocks tile the result, so the result array
  ends holding the positive part of the whole aggregated array.
-/
import proofs.«170723_j13073880449099_2_alg».proof.Proof.Gen.KernelIdeal.Frame
import proofs.«170723_j13073880449099_2_alg».proof.Proof.Spec
import Idealize.ShloMosaic.Lib.Pipeline.Value
import Idealize.ShloMosaic.Lib.ValueIdx

set_option maxRecDepth 16384

noncomputable section

namespace Cert.KernelIdeal.Region2

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The aggregated array as the region finds it, at its literal type. -/
abbrev agg (c : Dev nD) : FVec Ideal S100000x64 .f32 := V c main_v12

theorem origin : (![0, 0] : Fin 2 → Nat) = fun _ => 0 := funext fun a => by fin_cases a <;> rfl

/-- The body's stored value at an entry of the block: the positive part of the loaded entry. -/
theorem pay_apply (x0 : Vec Ideal S5000x64 .f32) (j : S5000x64.Idx) :
    k2_pay1 x0 j = max (x0 j) (Ideal.ofBits .f32 0x00000000#32) := by
  unfold k2_pay1
  rw [shapeCast_self]
  rfl

/-- The index maps over the grid: the input block and the output block of point `t` are both row block `t`. -/
theorem idx_facts : ∀ t : Fin cfg2.N, win2_0.index t (0 : Fin 2) = win2_1.index t (0 : Fin 2)
    ∧ win2_0.index t (1 : Fin 2) = win2_1.index t (1 : Fin 2)
    ∧ win2_1.index t (0 : Fin 2) = t.val
    ∧ win2_1.index t (1 : Fin 2) = 0 :=
  (by decide +kernel : ∀ t : Fin grid2.N, _)

/-- What point `t` writes back is block `t` of the positive part of the array the region found. -/
theorem flushed_eq (c : Dev nD) (t : Fin cfg2.N) :
    (dat2 V c).flushed 1 t = ((cfg2.win 1).blk t).view.read (Elt Ideal) (positive (agg V c)) := by
  show (cfg2.win 1).cut (grid2.coords t) ((dat2 V c).after 1 t) = _
  rw [after2_1]
  unfold out2_1
  rw [View.canon_unit_zero origin]
  simp only [View.ld_unit_zero (S := S5000x64) origin]
  obtain ⟨e0, e1, -, -⟩ := idx_facts t
  funext j
  show k2_pay1 (iblk2 V c 0 t) j = positive (agg V c) (((cfg2.win 1).blk t).view.emb j)
  refine (pay_apply (iblk2 V c 0 t) j).trans ?_
  show max (agg V c (((cfg2.win 0).blk t).view.emb j)) _ = max (agg V c (((cfg2.win 1).blk t).view.emb j)) _
  have h0 : ((cfg2.win 0).blk t).view.emb j = ((cfg2.win 1).blk t).view.emb j := by
    funext a; apply Fin.ext
    match a with
    | ⟨0, _⟩ => show win2_0.index t (0 : Fin 2) * 5000 + 1 * (j 0).val = win2_1.index t (0 : Fin 2) * 5000 + 1 * (j 0).val; omega
    | ⟨1, _⟩ => show win2_0.index t (1 : Fin 2) * 64 + 1 * (j 1).val = win2_1.index t (1 : Fin 2) * 64 + 1 * (j 1).val; omega
  rw [h0]

/-- An entry is in point `t`'s output block iff each coordinate is in the block's range. -/
theorem mem_blk (t : Fin cfg2.N) (i : S100000x64.Idx) :
    i ∈ ((cfg2.win 1).blk t).view.set ↔ ∀ a : Fin 2, win2_1.index t a * S5000x64.size a ≤ (i a).val ∧ (i a).val < win2_1.index t a * S5000x64.size a + S5000x64.size a := by
  show i ∈ ((View.whole main_v13).slice (win2_1.rect t)).set ↔ _
  rw [View.set_slice_whole, Rect.mem_set_unit]
  exact Iff.rfl

/-- Every entry of the result lies in the output block of the point that owns its row. -/
theorem cover (i : S100000x64.Idx) :
    ∃ t : Fin cfg2.N, (cfg2.win 1).flush t = true ∧ i ∈ ((cfg2.win 1).blk t).view.set := by
  have h0 : (i 0).val < 100000 := (i 0).isLt
  have h1 : (i 1).val < 64 := (i 1).isLt
  refine ⟨⟨(i 0).val / 5000, by rw [show cfg2.N = 20 from N_2]; omega⟩, flush2_1 _, ?_⟩
  obtain ⟨-, -, e2, e3⟩ := idx_facts ⟨(i 0).val / 5000, by rw [show cfg2.N = 20 from N_2]; omega⟩
  rw [mem_blk]
  intro a
  match a with
  | ⟨0, _⟩ =>
    show win2_1.index _ (0 : Fin 2) * 5000 ≤ (i 0).val ∧ (i 0).val < win2_1.index _ (0 : Fin 2) * 5000 + 5000
    rw [e2]; show (i 0).val / 5000 * 5000 ≤ (i 0).val ∧ (i 0).val < (i 0).val / 5000 * 5000 + 5000; omega
  | ⟨1, _⟩ =>
    show win2_1.index _ (1 : Fin 2) * 64 ≤ (i 1).val ∧ (i 1).val < win2_1.index _ (1 : Fin 2) * 64 + 64
    rw [e3]; omega

/-- The result array after the region: the positive part of the array the region found. -/
theorem final (c : Dev nD) : (dat2 V c).arrAt 1 cfg2.N = positive (agg V c) :=
  (dat2 V c).arrAt_eq_of_cover 1 (positive (agg V c)) (fun t _ => flushed_eq V c t) cover

end Cert.KernelIdeal.Region2

end
-- ==== Proof.KernelValue.lean ====
/-
  The idealized kernel program's result as ONE function of its five argument arrays.

  The run passes six boundaries: the launch, the exit of the dense transform, the entry of the edge
  weighting (after the host lines that wrap negative source indices, gather the transformed rows by
  source node and lay the edge weights out as a column), its exit, the entry of the activation (after
  the host lines that add the weighted rows up by destination node into zeros), and its exit. At each
  exit the region's output array is the region's whole-array function of its input arrays; at each
  entry a host line's result is that line's operation of what the previous boundary holds. Read back
  from the last boundary to the launch, the result array is

    positive (scatter-add of (messages (gather of (support features weight) at the wrapped source indices)
                                        (the edge weights as a column)) by destination node into zeros).
-/
import proofs.«170723_j13073880449099_2_alg».proof.Proof.Gen.KernelIdeal.Frame
import proofs.«170723_j13073880449099_2_alg».proof.Proof.Region0
import proofs.«170723_j13073880449099_2_alg».proof.Proof.Region1
import proofs.«170723_j13073880449099_2_alg».proof.Proof.Region2
import Idealize.ShloMosaic.Lib.StableHlo.Run

set_option maxRecDepth 16384

noncomputable section

namespace Cert.KernelIdeal.Result

open Cert.KernelIdeal Cert.KernelIdeal.Gen Cert.Spec
open Idealize.ShloMosaic Idealize.ShloMosaic.TcCoe Idealize.SL.Sem Idealize.ShloMosaic.StableHlo

/-- The layer as one function of the five argument arrays. -/
def layer (x0 : FVec Ideal S100000x256 .f32) (x1 : FVec Ideal S256x64 .f32)
    (x2 x3 : IVec S1600000 32) (x4 : FVec Ideal S1600000 .f32) :
    FVec Ideal S100000x64 .f32 :=
  positive (Host.scatterAdd scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 x2) (messages (Host.gather gather_S100000x64_S1600000x1_S1600000x64_1_0_n_n_0_1_164 (support x0 x1) (broadcastInDim S1600000x1 ![0] bcast_S1600000_S1600000x1_0 (select (cmpi .slt x3 (broadcastInDim S1600000 ![] bcast_S_S1600000 (constantI S_ 32 0#32))) (addi x3 (broadcastInDim S1600000 ![] bcast_S_S1600000 (constantI S_ 32 100000#32))) x3))) (broadcastInDim S1600000x1 ![0] bcast_S1600000_S1600000x1_0 x4)))

variable (m : (ℓ : Loc nD τ sig) → Buf (Elt Ideal) ℓ) (ρ : Dev nD → PrngReg)

/-! ## After the dense transform -/

/-- The transformed rows at the first region's exit. -/
theorem transformed (c : Dev nD) :
    W1 m ρ c (Proc.devRef .tc main_v0) = support (m ((c : Thread nD τ).loc main_arg0)) (m ((c : Thread nD τ).loc main_arg1)) :=
  (W1_arr m ρ c 2).trans (Region0.final (V0 m ρ) c)

/-- The source indices, untouched by the first region. -/
theorem src_at1 (c : Dev nD) : W1 m ρ c (Proc.devRef .tc main_arg3) = m ((c : Thread nD τ).loc main_arg3) :=
  W1_of_ne m ρ c main_arg3 (by decide)
/-- The edge weights, untouched by the first region. -/
theorem wts_at1 (c : Dev nD) : W1 m ρ c (Proc.devRef .tc main_arg4) = m ((c : Thread nD τ).loc main_arg4) :=
  W1_of_ne m ρ c main_arg4 (by decide)
/-- The destination indices, untouched by the first region. -/
theorem dst_at1 (c : Dev nD) : W1 m ρ c (Proc.devRef .tc main_arg2) = m ((c : Thread nD τ).loc main_arg2) :=
  W1_of_ne m ρ c main_arg2 (by decide)

/-! ## At the edge weighting's entry -/

/-- The gathered rows the second region finds. -/
theorem gathered (c : Dev nD) :
    W2 m ρ c (Proc.devRef .tc main_v7) = Host.gather gather_S100000x64_S1600000x1_S1600000x64_1_0_n_n_0_1_164 (W1 m ρ c (Proc.devRef .tc main_v0)) (broadcastInDim S1600000x1 ![0] bcast_S1600000_S1600000x1_0 (select (cmpi .slt (W1 m ρ c (Proc.devRef .tc main_arg3)) (broadcastInDim S1600000 ![] bcast_S_S1600000 (constantI S_ 32 0#32))) (addi (W1 m ρ c (Proc.devRef .tc main_arg3)) (broadcastInDim S1600000 ![] bcast_S_S1600000 (constantI S_ 32 100000#32))) (W1 m ρ c (Proc.devRef .tc main_arg3)))) := by
  show StableHlo.after hostOps1 (W1 m ρ c) (Proc.devRef .tc main_v7) = _
  dsimp only [hostOps1]
  after_results

/-- The column of edge weights the second region finds. -/
theorem weightCol (c : Dev nD) :
    W2 m ρ c (Proc.devRef .tc main_v8) = broadcastInDim S1600000x1 ![0] bcast_S1600000_S1600000x1_0 (W1 m ρ c (Proc.devRef .tc main_arg4)) := by
  show StableHlo.after hostOps1 (W1 m ρ c) (Proc.devRef .tc main_v8) = _
  dsimp only [hostOps1]
  after_results

/-- The destination indices at the second region's entry. -/
theorem dst_at2 (c : Dev nD) : W2 m ρ c (Proc.devRef .tc main_arg2) = W1 m ρ c (Proc.devRef .tc main_arg2) := by
  show StableHlo.after hostOps1 (W1 m ρ c) (Proc.devRef .tc main_arg2) = _
  dsimp only [hostOps1]
  after_results

/-! ## After the edge weighting -/

/-- The weighted rows at the second region's exit. -/
theorem weighted (c : Dev nD) :
    W3 m ρ c (Proc.devRef .tc main_v9) = messages (W2 m ρ c (Proc.devRef .tc main_v7)) (W2 m ρ c (Proc.devRef .tc main_v8)) :=
  (W3_arr m ρ c 2).trans (Region1.final (V2 m ρ) c)

/-- The destination indices, untouched by the second region. -/
theorem dst_at3 (c : Dev nD) : W3 m ρ c (Proc.devRef .tc main_arg2) = W2 m ρ c (Proc.devRef .tc main_arg2) :=
  W3_of_ne m ρ c main_arg2 (by decide)

/-! ## At the activation's entry -/

/-- The aggregated rows the third region finds. -/
theorem aggregated (c : Dev nD) :
    W4 m ρ c (Proc.devRef .tc main_v12) = Host.scatterAdd scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 (W3 m ρ c (Proc.devRef .tc main_arg2))) (W3 m ρ c (Proc.devRef .tc main_v9)) := by
  show StableHlo.after hostOps2 (W3 m ρ c) (Proc.devRef .tc main_v12) = _
  dsimp only [hostOps2]
  after_results

/-! ## After the activation -/

/-- The result array at the last boundary. -/
theorem activated (c : Dev nD) :
    W5 m ρ c (Proc.devRef .tc main_v13) = positive (W4 m ρ c (Proc.devRef .tc main_v12)) :=
  (W5_arr m ρ c 1).trans (Region2.final (V4 m ρ) c)

/-- THE RESULT: the last boundary's contents of the result array are the layer of the launch arrays. -/
theorem value (c : Dev nD) :
    W5 m ρ c (Proc.devRef .tc main_v13) = layer (m ((c : Thread nD τ).loc main_arg0)) (m ((c : Thread nD τ).loc main_arg1)) (m ((c : Thread nD τ).loc main_arg2)) (m ((c : Thread nD τ).loc main_arg3)) (m ((c : Thread nD τ).loc main_arg4)) := by
  rw [activated, aggregated, weighted, gathered, weightCol, transformed, dst_at3, dst_at2, dst_at1, src_at1, wts_at1]
  rfl

end Cert.KernelIdeal.Result

end
-- ==== Proof.RefStages.lean ====
/-
  The reference's three arithmetic stages, each read index by index and met with the layer's
  whole-array functions: its one matrix product of the whole feature matrix with the weight matrix is
  `support`; its product of the gathered rows with the edge weights laid out along each row is
  `messages` of the rows and the weights' column; its maximum with a zero array is `positive`. The
  gather by source node and the sum by destination node between them are left as they stand. So the
  reference's result is the layer's function of its five arguments.
-/
import proofs.«170723_j13073880449099_2_alg».proof.Proof.Gen.ReferenceIdeal.Run
import proofs.«170723_j13073880449099_2_alg».proof.Proof.Gen.ReferenceIdeal.Read
import proofs.«170723_j13073880449099_2_alg».proof.Proof.Spec

noncomputable section

open scoped BigOperators

namespace Cert.ReferenceIdeal.Stages

open Cert.ReferenceIdeal Cert.ReferenceIdeal.Gen Cert.ReferenceIdeal.Read Cert.Spec
open Idealize.ShloMosaic Idealize.ShloMosaic.TcCoe Idealize.SL.Sem Idealize.ShloMosaic.StableHlo

/-- The layer as one function of the five argument arrays. -/
def layer (x0 : FVec Ideal S100000x256 .f32) (x1 : FVec Ideal S256x64 .f32)
    (x2 x3 : IVec S1600000 32) (x4 : FVec Ideal S1600000 .f32) :
    FVec Ideal S100000x64 .f32 :=
  positive (Host.scatterAdd scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 x2) (messages (Host.gather gather_S100000x64_S1600000x1_S1600000x64_1_0_n_n_0_1_164 (support x0 x1) (broadcastInDim S1600000x1 ![0] bcast_S1600000_S1600000x1_0 (select (cmpi .slt x3 (broadcastInDim S1600000 ![] bcast_S_S1600000 (constantI S_ 32 0#32))) (addi x3 (broadcastInDim S1600000 ![] bcast_S_S1600000 (constantI S_ 32 100000#32))) x3))) (broadcastInDim S1600000x1 ![0] bcast_S1600000_S1600000x1_0 x4)))

/-- The feature entry the product reads at input feature `k` is the layer's. -/
theorem lidx_eq (i : S100000x64.Idx) (k : Fin 256) : lidx_main_v0 i k = featAt i k :=
  funext fun a => by match a with | ⟨0, _⟩ => rfl | ⟨1, _⟩ => rfl
/-- The weight entry the product reads at input feature `k` is the layer's. -/
theorem ridx_eq (i : S100000x64.Idx) (k : Fin 256) : ridx_main_v0 i k = wtAt i k :=
  funext fun a => by match a with | ⟨0, _⟩ => rfl | ⟨1, _⟩ => rfl

/-- The reference's matrix product is the dense transform. -/
theorem product_eq (x0 : FVec Ideal S100000x256 .f32) (x1 : FVec Ideal S256x64 .f32) :
    Host.dotGeneral dot_S100000x256_S256x64_S100000x64_1_0_0_1_n_n none x0 x1 = support x0 x1 := by
  funext i
  refine (val_main_v0_apply x0 x1 i).trans ?_
  unfold support
  refine Finset.sum_congr rfl fun k _ => ?_
  rw [lidx_eq, ridx_eq]

/-- The reference's product with the weights laid along each row is the edge weighting by the weights' column. -/
theorem scale_eq (g : FVec Ideal S1600000x64 .f32) (v : FVec Ideal S1600000x1 .f32) :
    mulf g (broadcastInDim S1600000x64 ![0, 1] bcast_S1600000x1_S1600000x64_0_1 v) = messages g v := by
  funext i
  show g i * broadcastInDim S1600000x64 ![0, 1] bcast_S1600000x1_S1600000x64_0_1 v i = g i * v (edgeAt i)
  rw [broadcastInDim_apply _ bcast_S1600000x1_S1600000x64_0_1 v i (edgeAt i) (fun a => match a with
    | ⟨0, _⟩ => by show (i 0).val = if (1600000 : Nat) = 1 then 0 else (i 0).val; rw [if_neg (by decide)]
    | ⟨1, _⟩ => by show 0 = if (1 : Nat) = 1 then 0 else (i 1).val; rw [if_pos rfl])]

/-- The reference's maximum with a zero array is the positive part. -/
theorem relu_eq (y : FVec Ideal S100000x64 .f32) :
    maximumf y (broadcastInDim S100000x64 ![] bcast_S_S100000x64 (constant (F := Ideal) S_ .f32 0x00000000#32)) = positive y := by
  funext i
  rfl

/-- THE RESULT: the term the reference's run ends at is the layer of its arguments. -/
theorem value (x0 : FVec Ideal S100000x256 .f32) (x1 : FVec Ideal S256x64 .f32)
    (x2 x3 : IVec S1600000 32) (x4 : FVec Ideal S1600000 .f32) :
    maximumf (Host.scatterAdd scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 (x2)) (mulf (Host.gather gather_S100000x64_S1600000x1_S1600000x64_1_0_n_n_0_1_164 (Host.dotGeneral dot_S100000x256_S256x64_S100000x64_1_0_0_1_n_n none (x0) (x1)) (broadcastInDim S1600000x1 ![0] bcast_S1600000_S1600000x1_0 (select (cmpi .slt (x3) (broadcastInDim S1600000 ![] bcast_S_S1600000 (constantI S_ 32 0#32))) (addi (x3) (broadcastInDim S1600000 ![] bcast_S_S1600000 (constantI S_ 32 100000#32))) (x3)))) (broadcastInDim S1600000x64 ![0, 1] bcast_S1600000x1_S1600000x64_0_1 (broadcastInDim S1600000x1 ![0] bcast_S1600000_S1600000x1_0 (x4))))) (broadcastInDim S100000x64 ![] bcast_S_S100000x64 (constant (F := Ideal) S_ .f32 0x00000000#32))
      = layer x0 x1 x2 x3 x4 := by
  rw [product_eq, scale_eq, relu_eq]
  rfl

end Cert.ReferenceIdeal.Stages

end
-- ==== Proof.lean ====
/-
  A graph-convolution layer: output = relu(A · (X · W)), with the sparse normalized adjacency A given in
  coordinate form (destination node, source node, weight per edge), X the 100000 × 256 node features
  and W the 256 × 64 weights.

  The kernel program computes it in three tiled regions with two stretches of host lines between them:
  the dense transform X · W in 20 row blocks (operands narrowed to bfloat16, products accumulated into
  zeros); then on the host the gather of transformed rows by source node; the edge weighting in 200 row
  blocks (each gathered row times its edge's weight, the weights laid out as a column); then on the host
  the sum of the weighted rows by destination node into zeros; and the positive part in 20 row blocks.
  The reference computes one matrix product, the same gather, one product with the weights laid along
  each row, the same sum by destination node, and a maximum with zeros.

  Over the extended reals the narrowing is the identity and a sum accumulated into zero is the sum, so
  each region's row blocks are the row blocks of one whole-array function (`Cert.Spec.support`,
  `messages`, `positive`: Proof/Region0–2.lean), these blocks tile their arrays, and the reference's
  three arithmetic stages are the same three functions (Proof/RefStages.lean). The gather and the sum
  by destination are the same operations applied to equal arrays in both programs and are never
  opened. Both results are therefore one function, `layer`, of the five arguments
  (Proof/KernelValue.lean for the kernel program's run read boundary by boundary, over the run with its
  result named in Proof/NamedRun.lean). No law used needs finiteness: the precondition is never opened.
  The ideal pass rewrote nothing, so the idealized kernel is the kernel's own text and there is nothing
  to preserve.
-/
import proofs.«170723_j13073880449099_2_alg».proof.Defs
import proofs.«170723_j13073880449099_2_alg».proof.Proof.Gen.Kernel
import proofs.«170723_j13073880449099_2_alg».proof.Proof.Gen.Kernel.Skeleton
import proofs.«170723_j13073880449099_2_alg».proof.Proof.Gen.Kernel.Launch
import proofs.«170723_j13073880449099_2_alg».proof.Proof.Gen.Kernel.Points
import proofs.«170723_j13073880449099_2_alg».proof.Proof.Gen.Kernel.Frame
import proofs.«170723_j13073880449099_2_alg».proof.Proof.Gen.KernelIdeal
import proofs.«170723_j13073880449099_2_alg».proof.Proof.Gen.KernelIdeal.Skeleton
import proofs.«170723_j13073880449099_2_alg».proof.Proof.Gen.KernelIdeal.Launch
import proofs.«170723_j13073880449099_2_alg».proof.Proof.Gen.KernelIdeal.Points
import proofs.«170723_j13073880449099_2_alg».proof.Proof.Gen.KernelIdeal.Frame
import proofs.«170723_j13073880449099_2_alg».proof.Proof.Gen.ReferenceIdeal
import proofs.«170723_j13073880449099_2_alg».proof.Proof.Gen.ReferenceIdeal.Run
import proofs.«170723_j13073880449099_2_alg».proof.Proof.Gen.Pre_finite_inputs
import proofs.«170723_j13073880449099_2_alg».proof.Proof.NamedRun
import proofs.«170723_j13073880449099_2_alg».proof.Proof.KernelValue
import proofs.«170723_j13073880449099_2_alg».proof.Proof.RefStages
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The layer as stated over the kernel program's names is the layer as stated over the reference's: the same
    three whole-array functions around the same gather and the same sum by destination node. -/
theorem layer_eq (x0 : FVec Ideal Cert.KernelIdeal.S100000x256 .f32) (x1 : FVec Ideal Cert.KernelIdeal.S256x64 .f32)
    (x2 x3 : IVec Cert.KernelIdeal.S1600000 32) (x4 : FVec Ideal Cert.KernelIdeal.S1600000 .f32) :
    Cert.ReferenceIdeal.Stages.layer x0 x1 x2 x3 x4 = Cert.KernelIdeal.Result.layer x0 x1 x2 x3 x4 := rfl

/-- From memories that agree on the five arguments both programs end with the layer of those arguments in
    their result arrays. -/
theorem algebraic : Cert.algebraic_KernelIdeal_ReferenceIdeal := by
  intro m ρ m' ρ' _ hagree
  refine ⟨fun c => Cert.KernelIdeal.Result.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Result.value m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Stages.value]
    obtain ⟨e0, e1, e2, e3, e4⟩ := hagree c
    rw [e0, e1, e2, e3, e4]
    exact layer_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
